-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x256 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩
abbrev S128x128 : Shape := ⟨2, ![128, 128]⟩

abbrev nBuf : Space → Nat
  | .hbm => 6
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x256, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v9 : BitVec 32 := Scalar.muli arg0 c400_i32
  let v10 : Index := Scalar.indexCast v9
  let c0_5 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S128_S1x128_1 : S128.BroadcastsInDim S1x128 (![1] : Fin 1 → Fin S1x128.rank)
  inb_S400x10000_S400x10000_0_0 : ∀ a, (![0, 0] : Fin 2 → Nat) a + S400x10000.size a ≤ S400x10000.size a
  h_S400x10000 : 0 < S400x10000.numel
  reduces_S400x10000_S400 : S400x10000.Reduces [1] S400
  shapeCasts_S400_S400x1 : S400.ShapeCasts S400x1
  inb_S10000x128_S10000x128_0_0 : ∀ a, (![0, 0] : Fin 2 → Nat) a + S10000x128.size a ≤ S10000x128.size a
  h_S10000x128 : 0 < S10000x128.numel
  broadcasts_S400x1_S400x128 : S400x1.Broadcasts S400x128
  h_S400x128 : 0 < S400x128.numel
  inb_S128x256_S128x128_0_0 : ∀ a, (![0, 0] : Fin 2 → Nat) a + S128x128.size a ≤ S128x256.size a
  h_S128x128 : 0 < S128x128.numel
  inb_S128x256_S128x128_0_128 : ∀ a, (![0, 128] : Fin 2 → Nat) a + S128x128.size a ≤ S128x256.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_1_0_0_n_n_wf : DotDims.WF S400x128 S128x128 S400x128 [1] [1] [0] [0] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_1_0_0_n_n : DotDims S400x128 S128x128 S400x128 where
  lhsContracting := [1]
  rhsContracting := [1]
  lhsNonContracting := [0]
  rhsNonContracting := [0]
  lhsBatch := []
  rhsBatch := []
  wf := dot_S400x128_S128x128_S400x128_1_1_0_0_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S_ : Shape := ⟨0, ![]⟩
abbrev S10000 : Shape := ⟨1, ![10000]⟩
abbrev S10000x1 : Shape := ⟨2, ![10000, 1]⟩
abbrev S10000x256 : Shape := ⟨2, ![10000, 256]⟩
abbrev S256x128 : Shape := ⟨2, ![256, 128]⟩
abbrev S1x128 : Shape := ⟨2, ![1, 128]⟩

abbrev nBuf : Space → Nat
  | .hbm => 23
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128, .f32⟩
  | .hbm, ⟨4, _⟩ => ⟨S_, .f32⟩
  | .hbm, ⟨5, _⟩ => ⟨S10000, .f32⟩
  | .hbm, ⟨6, _⟩ => ⟨S10000x1, .f32⟩
  | .hbm, ⟨7, _⟩ => ⟨S_, .f32⟩
  | .hbm, ⟨8, _⟩ => ⟨S_, .f32⟩
  | .hbm, ⟨9, _⟩ => ⟨S10000x1, .f32⟩
  | .hbm, ⟨10, _⟩ => ⟨S10000x1, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S10000x256, .f32⟩
  | .hbm, ⟨15, _⟩ => ⟨S256x128, .f32⟩
  | .hbm, ⟨16, _⟩ => ⟨S10000x128, .f32⟩
  | .hbm, ⟨17, _⟩ => ⟨S1x128, .f32⟩
  | .hbm, ⟨18, _⟩ => ⟨S10000x128, .f32⟩
  | .hbm, ⟨19, _⟩ => ⟨S10000x128, .f32⟩
  | .hbm, ⟨20, _⟩ => ⟨S_, .f32⟩
  | .hbm, ⟨21, _⟩ => ⟨S10000x128, .f32⟩
  | .hbm, ⟨22, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call1_cst : Ref sig .tc := ⟨.hbm, 20, rfl⟩
abbrev main_call1_v0 : Ref sig .tc := ⟨.hbm, 21, rfl⟩
abbrev main_v12 : Ref sig .tc := ⟨.hbm, 22, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  transposes_S128x256_S256x128_1_0 : S128x256.Transposes [1, 0] S256x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.Piece.lean ====
/-
  What one grid step leaves in the output block's staging buffer: the body's one store covers the whole block, so the
  buffer ends holding the stored value — the body's arithmetic applied to what its six loads read. Four loads read a
  staging buffer whole (the adjacency rows, the feature matrix, the bias row); the step's own feature rows are read from
  the feature buffer at the step's row offset, and the two halves of the weight matrix from the weight buffer at column
  offsets 0 and 128.
-/
import proofs.«137185_g62165356642709_cont_9to1_m_1371_16_alg».proof.Proof.Gen.KernelIdeal.Frame
import Idealize.ShloMosaic.Lib.Pipeline.Value
import Idealize.ShloMosaic.Lib.Tactic

set_option maxRecDepth 16384

noncomputable section

namespace Cert.Sage.Piece

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

theorem hz : (![0, 0] : Fin 2 → Nat) = fun _ => 0 := funext fun a => by fin_cases a <;> rfl

/-- The step's own feature rows: the feature buffer read at the step's row offset. -/
abbrev ownRows (i : grid0.Coords) (x1 : Vec F S10000x128 .f32) : Vec F S400x128 .f32 :=
  View.ld x1 (Rect.unit (s := S10000x128) (k0_off1 i) S400x128.size (k0_off1_inb i))

/-- The left half of the weight matrix: its columns 0 to 127. -/
abbrev leftHalf (x2 : Vec F S128x256 .f32) : Vec F S128x128 .f32 :=
  View.ld x2 (Rect.unit (s := S128x256) ![0, 0] S128x128.size inb_S128x256_S128x128_0_0)

/-- The right half of the weight matrix: its columns 128 to 255. -/
abbrev rightHalf (x2 : Vec F S128x256 .f32) : Vec F S128x128 .f32 :=
  View.ld x2 (Rect.unit (s := S128x256) ![0, 128] S128x128.size inb_S128x256_S128x128_0_128)

/-- After the body, the output's staging buffer holds the stored value of the loaded blocks. -/
theorem out_eq (c : Dev nD) (i : grid0.Coords) (arg1 : Memref sig .tc .vmem S400x10000 .f32) (harg1 : arg1.IsWhole)
    (arg2 : Memref sig .tc .vmem S10000x128 .f32) (harg2 : arg2.IsWhole) (arg3 : Memref sig .tc .vmem S128x256 .f32)
    (harg3 : arg3.IsWhole) (arg4 : Memref sig .tc .vmem S1x128 .f32) (harg4 : arg4.IsWhole)
    (arg5 : Memref sig .tc .vmem S400x128 .f32) (harg5 : arg5.IsWhole)
    (x0 : Vec F S400x10000 .f32) (x1 : Vec F S10000x128 .f32) (x2 : Vec F S128x256 .f32) (x3 : Vec F S1x128 .f32) :
    out0_A_4 c i arg1 harg1 arg2 harg2 arg3 harg3 arg4 harg4 arg5 harg5 x0 x1 x2 x3
      = k0_pay1 x0 x1 (ownRows i x1) (leftHalf x2) (rightHalf x2) x3 := by
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  rw [View.canon_unit_zero hz]
  simp only [View.readAt_eq_ld, harg1.read_unread, harg2.read_unread, harg3.read_unread, harg4.read_unread,
    View.ld_unit_zero (S := S400x10000) hz, View.ld_unit_zero (S := S10000x128) hz, View.ld_unit_zero (S := S1x128) hz]
  rfl

end Cert.Sage.Piece

end
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.LibTransposedDot.lean ====
/-
  A two-dimensional contraction in which BOTH operands are contracted on their last axis (rows x inner times
  columns x inner, no batch axis): the product of the left matrix with the transpose of the right one. At the
  extended reals the matrix unit's product into a zero accumulator is, at (row, column), the sum over the inner index k
  of the left operand's entry (row, k) times the right operand's entry (column, k).
-/
import Idealize.ShloMosaic.Lib.ValueIdx
import Idealize.ShloMosaic.PureOps.Ideal.Laws

noncomputable section

namespace Cert.TransposedDot

open Idealize.ShloMosaic Idealize.ShloMosaic.ValueIdx

variable {M K N : Nat}

/-- The left operand's row coordinate is the output's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's inner coordinate is the contraction index. -/
theorem lhs_inner (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row coordinate is the output's COLUMN. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's inner coordinate is the contraction index. -/
theorem rhs_inner (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The contraction's sum re-indexed by the shared inner coordinate. -/
theorem sum_contr (A : (⟨2, ![M, K]⟩ : Shape).Idx → EReal) (B : (⟨2, ![N, K]⟩ : Shape).Idx → EReal)
    (j : (⟨2, ![M, N]⟩ : Shape).Idx) :
    (∑ q : (DotDims.transposedRhs M K N).contr.Idx,
        A ((DotDims.transposedRhs M K N).lhsIdx j q) * B ((DotDims.transposedRhs M K N).rhsIdx j q))
      = ∑ k : Fin K, A (ix2 (j 0) k) * B (ix2 (j 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k)
      = ix2 (j 0) k :=
    funext fun a => Fin.ext (by
      match a with
      | ⟨0, _⟩ => exact lhs_row _ _
      | ⟨1, _⟩ => exact (lhs_inner _ _).trans hk)
  have er : (DotDims.transposedRhs M K N).rhsIdx j ((contrEquiv1 (DotDims.transposedRhs M K N) K rfl rfl).symm k)
      = ix2 (j 1) k :=
    funext fun a => Fin.ext (by
      match a with
      | ⟨0, _⟩ => exact rhs_row _ _
      | ⟨1, _⟩ => exact (rhs_inner _ _).trans hk)
  exact congrArg₂ (· * ·) (congrArg A el) (congrArg B er)

/-- The matrix unit's product into the zero accumulator, both operands contracted on their last axis, at an output
    index: the sum over the inner index of the row's entry times the column's entry. -/
theorem matmul_zero_apply {φ₁ φ₂ : FTy} (prec : Option ContractPrecision)
    (A : FVec Ideal (⟨2, ![M, K]⟩ : Shape) φ₁) (B : FVec Ideal (⟨2, ![N, K]⟩ : Shape) φ₂) (j : (⟨2, ![M, N]⟩ : Shape).Idx) :
    FloatOps.matmul (DotDims.transposedRhs M K N) prec A B (constant (⟨2, ![M, N]⟩ : Shape) .f32 0x00000000#32) j
      = ∑ k : Fin K, A (ix2 (j 0) k) * B (ix2 (j 1) k) :=
  (Ideal.matmul_constant_zero_apply (DotDims.transposedRhs M K N) prec A B j).trans (sum_contr A B j)

end Cert.TransposedDot

end
-- ==== Proof.LibRowOps.lean ====
/-
  Row-wise operations on a two-dimensional array read at an index, at the extended reals: the sum of each row
  (a reduction over the last axis), the row sums viewed as a one-column array, and a one-column array broadcast
  over the columns. These are the pieces of a sum taken with its axis kept.
-/
import Idealize.ShloMosaic.Lib.ValueIdx
import Idealize.ShloMosaic.Lib.Pipeline.Value
import Idealize.ShloMosaic.PureOps.Ideal.Laws

noncomputable section

namespace Cert.RowOps

open Idealize.ShloMosaic Idealize.ShloMosaic.ValueIdx

variable {α : Type}

/-- The sum over the last axis of an `[a, b]` array, at row `p`: the sum of the row's entries. -/
theorem rowSum_apply {a b : ℕ} (src : FVec Ideal (⟨2, ![a, b]⟩ : Shape) .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ n : Fin b, src (ix2 p n) := by
  refine (Ideal.multiReduction_add_single src acc h hφ hacc (ix1 p)).trans ?_
  refine Finset.sum_congr rfl fun n _ => congrArg src (funext fun d => Fin.ext ?_)
  match d with
  | ⟨0, _⟩ => rfl
  | ⟨1, _⟩ => rfl

/-- An `[a]` array viewed as the one-column array `[a, 1]` reads, at `(p, 0)`, the operand at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A one-column array `[a, 1]` broadcast to `[a, b]` reads, at `(p, q)`, the operand's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

end Cert.RowOps

end
-- ==== Proof.Payload.lean ====
/-
  The kernel body's arithmetic at one entry of its output block, over the extended reals. With `a` the block of 400
  adjacency rows, `x` the whole feature matrix, `xs` the block's own 400 feature rows, `wl` and `wr` the left and right
  halves of the weight matrix (each 128 outputs by 128 inputs) and `b` the bias row, the body stores at (p, q)

    max ((∑ k, xs (p, k) · wl (q, k) + ∑ k, mean (p, k) · wr (q, k)) + b (0, q)) 0,
    mean (p, k) = (∑ n, a (p, n) · x (n, k)) / max (∑ n, a (p, n)) 1.

  Each of the three matrix products accumulates into zero, so it is the plain sum of products; the two that multiply by a
  half of the weight matrix contract both operands on their last axis.
-/
import proofs.«137185_g62165356642709_cont_9to1_m_1371_16_alg».proof.Proof.Gen.KernelIdeal.Skeleton
import proofs.«137185_g62165356642709_cont_9to1_m_1371_16_alg».proof.Proof.LibPlainDot
import proofs.«137185_g62165356642709_cont_9to1_m_1371_16_alg».proof.Proof.LibTransposedDot
import proofs.«137185_g62165356642709_cont_9to1_m_1371_16_alg».proof.Proof.LibRowOps
import Idealize.ShloMosaic.Lib.ValueLayout
import Idealize.ShloMosaic.Lib.Pipeline.Value

noncomputable section

namespace Cert.Sage.Payload

open Idealize.ShloMosaic Idealize.ShloMosaic.ValueIdx Cert.KernelIdeal Cert.KernelIdeal.Gen

/-- The neighbourhood mean of feature `k` at row `p` of a block of adjacency rows. -/
def blockMean (a : (⟨2, ![400, 10000]⟩ : Shape).Idx → EReal) (x : (⟨2, ![10000, 128]⟩ : Shape).Idx → EReal)
    (p : Fin 400) (k : Fin 128) : EReal :=
  Ideal.div (∑ n : Fin 10000, a (ix2 p n) * x (ix2 n k))
    (max (∑ n : Fin 10000, a (ix2 p n)) (Ideal.ofBits .f32 0x3F800000#32))

/-- What the body stores at entry (p, q) of its block. -/
def blockLayer (a : (⟨2, ![400, 10000]⟩ : Shape).Idx → EReal) (x : (⟨2, ![10000, 128]⟩ : Shape).Idx → EReal)
    (xs : (⟨2, ![400, 128]⟩ : Shape).Idx → EReal) (wl wr : (⟨2, ![128, 128]⟩ : Shape).Idx → EReal)
    (b : (⟨2, ![1, 128]⟩ : Shape).Idx → EReal) (p : Fin 400) (q : Fin 128) : EReal :=
  max (((∑ k : Fin 128, xs (ix2 p k) * wl (ix2 q k)) + (∑ k : Fin 128, blockMean a x p k * wr (ix2 q k)))
        + b (ix2 (0 : Fin 1) q))
    (Ideal.ofBits .f32 0x00000000#32)

/-- The body's stored value, entry by entry. -/
theorem pay_apply (v0 : FVec Ideal S400x10000 .f32) (v5 : FVec Ideal S10000x128 .f32) (v11 : FVec Ideal S400x128 .f32)
    (v12 v14 : FVec Ideal S128x128 .f32) (v17 : FVec Ideal S1x128 .f32) (p : Fin 400) (q : Fin 128) :
    k0_pay1 (F := Ideal) v0 v5 v11 v12 v14 v17 (ix2 p q) = blockLayer v0 v5 v11 v12 v14 v17 p q := by
  unfold k0_pay1 blockLayer
  dsimp only
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) ?_ ?_
    · exact Cert.TransposedDot.matmul_zero_apply none v11 v12 (ix2 p q)
    · refine (Cert.TransposedDot.matmul_zero_apply none _ v14 (ix2 p q)).trans ?_
      refine Finset.sum_congr rfl fun k _ => congrArg (· * v14 (ix2 q k)) ?_
      refine (divf_apply _ _ _).trans ?_
      refine congrArg₂ Ideal.div ?_ ?_
      · exact Cert.PlainDot.matmul_zero_apply none v0 v5 (ix2 p k)
      · refine (Cert.RowOps.broadcastTo_a1_ab_apply _ _ p k).trans ?_
        refine (maximumf_apply _ _ _).trans ?_
        refine congrArg₂ max ?_ rfl
        refine (Cert.RowOps.shapeCast_a_a1_apply _ _ p 0).trans ?_
        exact Cert.RowOps.rowSum_apply v0 _ _ _ _ p
  · refine (broadcastTo_1b_ab_apply _ _ p q).trans ?_
    exact congrFun (shapeCast_self v17 _) _

end Cert.Sage.Payload

end
-- ==== Proof.Spec.lean ====
/-
  The graph layer both programs compute, as ONE function of the four argument arrays, entry by entry over the extended
  reals: a node's neighbourhood mean is the adjacency row's weighted sum of the feature rows divided by the row's degree
  clipped below at one; the layer multiplies the node's own features by the left half of the weight matrix's columns,
  the mean by the right half, adds the bias and rectifies.

    mean (r, k)   = (∑ n, adj (r, n) · x (n, k)) / max (∑ n, adj (r, n)) 1
    layer (r, c)  = max ((∑ k, x (r, k) · W (c, k) + ∑ k, mean (r, k) · W (c, 128 + k)) + b c) 0

  The one law the two programs differ by is the splitting of a sum over 256 columns into its two halves of 128, which needs
  only that addition of extended reals is commutative and associative.
-/
import Idealize.ShloMosaic.Lib.ValueIdx
import Idealize.ShloMosaic.PureOps.Ideal.Laws

noncomputable section

namespace Cert.Sage

open Idealize.ShloMosaic Idealize.ShloMosaic.ValueIdx

/-- Column `k` of the weight matrix's left half, as a column of the whole matrix. -/
def lo (k : Fin 128) : Fin 256 := ⟨k.val, by have := k.isLt; omega⟩

/-- Column `k` of the weight matrix's right half, as a column of the whole matrix. -/
def hi (k : Fin 128) : Fin 256 := ⟨128 + k.val, by have := k.isLt; omega⟩

/-- A sum over the 256 columns is the sum over the left half plus the sum over the right half. -/
theorem sum_halves {M : Type*} [AddCommMonoid M] (f : Fin 256 → M) :
    ∑ k : Fin 256, f k = ∑ k : Fin 128, f (lo k) + ∑ k : Fin 128, f (hi k) := by
  have h := Fin.sum_univ_add (a := 128) (b := 128) (f := fun k : Fin (128 + 128) => f k)
  refine h.trans ?_
  refine congrArg₂ (· + ·) (Finset.sum_congr rfl fun k _ => congrArg f (Fin.ext rfl))
    (Finset.sum_congr rfl fun k _ => congrArg f (Fin.ext rfl))

variable (x : (⟨2, ![10000, 128]⟩ : Shape).Idx → EReal) (adj : (⟨2, ![10000, 10000]⟩ : Shape).Idx → EReal)
  (W : (⟨2, ![128, 256]⟩ : Shape).Idx → EReal) (b : (⟨1, ![128]⟩ : Shape).Idx → EReal)

/-- Row `r`'s degree, clipped below at one. -/
def degree (r : Fin 10000) : EReal :=
  max (∑ n : Fin 10000, adj (ix2 r n)) (Ideal.ofBits .f32 0x3F800000#32)

/-- The mean of the neighbours' feature `k` at node `r`. -/
def mean (r : Fin 10000) (k : Fin 128) : EReal :=
  Ideal.div (∑ n : Fin 10000, adj (ix2 r n) * x (ix2 n k)) (degree adj r)

/-- The layer's output at (node, output feature). -/
def layer : (⟨2, ![10000, 128]⟩ : Shape).Idx → EReal := fun j =>
  max (((∑ k : Fin 128, x (ix2 (j 0) k) * W (ix2 (j 1) (lo k)))
        + (∑ k : Fin 128, mean x adj (j 0) k * W (ix2 (j 1) (hi k)))) + b (ix1 (j 1)))
    (Ideal.ofBits .f32 0x00000000#32)

end Cert.Sage

end
-- ==== Proof.Blocks.lean ====
/-
  From one grid step to the whole result array. Grid step t (0 ≤ t < 25) works on the 400 nodes 400·t … 400·t + 399:
  its adjacency block is those rows of the adjacency matrix, the feature matrix, the weight matrix and the bias row are
  staged whole at every step, and the step's own feature rows are rows 400·t + p of the feature matrix. So what step t
  writes back is the specification's layer at rows 400·t + p, and the 25 row blocks tile the 10000 rows: the result
  array is the layer.
-/
import proofs.«137185_g62165356642709_cont_9to1_m_1371_16_alg».proof.Proof.Gen.KernelIdeal.Value
import proofs.«137185_g62165356642709_cont_9to1_m_1371_16_alg».proof.Proof.Piece
import proofs.«137185_g62165356642709_cont_9to1_m_1371_16_alg».proof.Proof.Payload
import proofs.«137185_g62165356642709_cont_9to1_m_1371_16_alg».proof.Proof.Spec
import Idealize.ShloMosaic.Lib.StableHlo.Run
import Idealize.ShloMosaic.Lib.Pipeline.Value

set_option maxRecDepth 16384

noncomputable section

namespace Cert.Sage.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

/-! ## The arrays the region finds, and the blocks a step reads, at their literal types -/

abbrev feat (c : Dev nD) : Vec Ideal S10000x128 .f32 := V m c main_arg0
abbrev adjm (c : Dev nD) : Vec Ideal S10000x10000 .f32 := V m c main_arg1
abbrev wmat (c : Dev nD) : Vec Ideal S128x256 .f32 := V m c main_arg2
abbrev brow (c : Dev nD) : Vec Ideal S1x128 .f32 := V m c main_v0
abbrev bias (c : Dev nD) : Vec Ideal S128 .f32 := m ((c : Thread nD τ).loc main_arg3)

abbrev adjBlk (c : Dev nD) (t : Fin cfg0.N) : Vec Ideal S400x10000 .f32 := iblk m c 0 t
abbrev featBlk (c : Dev nD) (t : Fin cfg0.N) : Vec Ideal S10000x128 .f32 := iblk m c 1 t
abbrev wBlk (c : Dev nD) (t : Fin cfg0.N) : Vec Ideal S128x256 .f32 := iblk m c 2 t
abbrev bBlk (c : Dev nD) (t : Fin cfg0.N) : Vec Ideal S1x128 .f32 := iblk m c 3 t

/-- The layer of the arrays the region finds: what the result array ends holding. -/
abbrev spec (c : Dev nD) : Vec Ideal S10000x128 .f32 :=
  Cert.Sage.layer (feat m c) (adjm m c) (wmat m c) (bias m c)

/-- Node `400·t + p`: row `p` of step `t`'s block. -/
def node (t : Fin cfg0.N) (p : Fin 400) : Fin 10000 :=
  ⟨400 * t.val + p.val, by have := t.isLt; have hN : cfg0.N = 25 := N_0; have := p.isLt; omega⟩

/-- The index maps over the grid: the adjacency and result blocks move with the step along the rows, the other
    windows stay at block (0, 0), and the body's row offset into the feature buffer is 400·t. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ k0_off1 (grid0.coords t) (0 : Fin 2) = 400 * t.val ∧ k0_off1 (grid0.coords t) (1 : Fin 2) = 0 :=
  (by decide +kernel : ∀ t : Fin grid0.N, _)

/-! ## Each block read where the result's block says -/

/-- The adjacency block's row `p` is the adjacency matrix's row `400·t + p`. -/
theorem adjBlk_apply (c : Dev nD) (t : Fin cfg0.N) (p : Fin 400) (n : Fin 10000) :
    adjBlk m c t (ix2 p n) = adjm m c (ix2 (node t p) n) := by
  obtain ⟨e0, e1, -⟩ := idx_facts t
  show V m c main_arg1 (((cfg0.win 0).blk t).view.emb (ix2 p n)) = V m c main_arg1 (ix2 (node t p) n)
  refine congrArg (V m c main_arg1) (funext fun a => Fin.ext ?_)
  match a with
  | ⟨0, _⟩ => show win0_0.index t (0 : Fin 2) * 400 + 1 * p.val = 400 * t.val + p.val; omega
  | ⟨1, _⟩ => show win0_0.index t (1 : Fin 2) * 10000 + 1 * n.val = n.val; omega

/-- The feature matrix is staged whole. -/
theorem featBlk_apply (c : Dev nD) (t : Fin cfg0.N) (n : Fin 10000) (k : Fin 128) :
    featBlk m c t (ix2 n k) = feat m c (ix2 n k) := by
  obtain ⟨-, -, e0, e1, -⟩ := idx_facts t
  show V m c main_arg0 (((cfg0.win 1).blk t).view.emb (ix2 n k)) = V m c main_arg0 (ix2 n k)
  refine congrArg (V m c main_arg0) (funext fun a => Fin.ext ?_)
  match a with
  | ⟨0, _⟩ => show win0_1.index t (0 : Fin 2) * 10000 + 1 * n.val = n.val; omega
  | ⟨1, _⟩ => show win0_1.index t (1 : Fin 2) * 128 + 1 * k.val = k.val; omega

/-- The weight matrix is staged whole. -/
theorem wBlk_apply (c : Dev nD) (t : Fin cfg0.N) (q : Fin 128) (K : Fin 256) :
    wBlk m c t (ix2 q K) = wmat m c (ix2 q K) := by
  obtain ⟨-, -, -, -, e0, e1, -⟩ := idx_facts t
  show V m c main_arg2 (((cfg0.win 2).blk t).view.emb (ix2 q K)) = V m c main_arg2 (ix2 q K)
  refine congrArg (V m c main_arg2) (funext fun a => Fin.ext ?_)
  match a with
  | ⟨0, _⟩ => show win0_2.index t (0 : Fin 2) * 128 + 1 * q.val = q.val; omega
  | ⟨1, _⟩ => show win0_2.index t (1 : Fin 2) * 256 + 1 * K.val = K.val; omega

/-- The bias row is staged whole. -/
theorem bBlk_apply (c : Dev nD) (t : Fin cfg0.N) (q : Fin 128) :
    bBlk m c t (ix2 (0 : Fin 1) q) = brow m c (ix2 (0 : Fin 1) q) := by
  obtain ⟨-, -, -, -, -, -, e0, e1, -⟩ := idx_facts t
  show V m c main_v0 (((cfg0.win 3).blk t).view.emb (ix2 (0 : Fin 1) q)) = V m c main_v0 (ix2 (0 : Fin 1) q)
  refine congrArg (V m c main_v0) (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- The bias row the host made before the region is the bias vector laid out as one row. -/
theorem brow_apply (c : Dev nD) (q : Fin 128) : brow m c (ix2 (0 : Fin 1) q) = bias m c (ix1 q) := by
  have e : (V m c main_v0 : S1x128.Idx → EReal)
      = broadcastInDim S1x128 ![1] bcast_S128_S1x128_1 (bias m c) := by
    dsimp only [Gen.V, Gen.hostOps0]; after_results
  show (V m c main_v0 : S1x128.Idx → EReal) (ix2 (0 : Fin 1) q) = _
  rw [e]
  refine broadcastInDim_apply _ bcast_S128_S1x128_1 (bias m c) (ix2 (0 : Fin 1) q) (ix1 q) fun a => ?_
  match a with
  | ⟨0, _⟩ => show q.val = if (128 : Nat) = 1 then 0 else q.val; rw [if_neg (by decide)]

/-- The step's own feature rows: row `p` is the feature buffer's row `400·t + p`. -/
theorem ownRows_apply (t : Fin cfg0.N) (X : Vec Ideal S10000x128 .f32) (p : Fin 400) (k : Fin 128) :
    Piece.ownRows (grid0.coords t) X (ix2 p k) = X (ix2 (node t p) k) := by
  obtain ⟨-, -, -, -, -, -, -, -, -, -, e0, e1⟩ := idx_facts t
  show X ((Rect.unit (s := S10000x128) (k0_off1 (grid0.coords t)) S400x128.size (k0_off1_inb (grid0.coords t))).idx (ix2 p k))
    = X (ix2 (node t p) k)
  refine congrArg X (funext fun a => Fin.ext ?_)
  match a with
  | ⟨0, _⟩ => show k0_off1 (grid0.coords t) (0 : Fin 2) + 1 * p.val = 400 * t.val + p.val; omega
  | ⟨1, _⟩ => show k0_off1 (grid0.coords t) (1 : Fin 2) + 1 * k.val = k.val; omega

/-- The weight buffer's left half at (q, k) is the weight matrix at (q, k). -/
theorem leftHalf_apply (X : Vec Ideal S128x256 .f32) (q k : Fin 128) :
    Piece.leftHalf X (ix2 q k) = X (ix2 q (Cert.Sage.lo k)) := by
  show X ((Rect.unit (s := S128x256) ![0, 0] S128x128.size inb_S128x256_S128x128_0_0).idx (ix2 q k)) = _
  refine congrArg X (funext fun a => Fin.ext ?_)
  match a with
  | ⟨0, _⟩ => show 0 + 1 * q.val = q.val; omega
  | ⟨1, _⟩ => show 0 + 1 * k.val = k.val; omega

/-- The weight buffer's right half at (q, k) is the weight matrix at (q, 128 + k). -/
theorem rightHalf_apply (X : Vec Ideal S128x256 .f32) (q k : Fin 128) :
    Piece.rightHalf X (ix2 q k) = X (ix2 q (Cert.Sage.hi k)) := by
  show X ((Rect.unit (s := S128x256) ![0, 128] S128x128.size inb_S128x256_S128x128_0_128).idx (ix2 q k)) = _
  refine congrArg X (funext fun a => Fin.ext ?_)
  match a with
  | ⟨0, _⟩ => show 0 + 1 * q.val = q.val; omega
  | ⟨1, _⟩ => show 128 + 1 * k.val = 128 + k.val; omega

/-- Entry (p, q) of step `t`'s result block sits at (400·t + p, q) of the result array. -/
theorem out_emb (t : Fin cfg0.N) (p : Fin 400) (q : Fin 128) :
    ((cfg0.win 4).blk t).view.emb (ix2 p q) = (ix2 (node t p) q : S10000x128.Idx) := by
  obtain ⟨-, -, -, -, -, -, -, -, e0, e1, -⟩ := idx_facts t
  refine funext fun a => Fin.ext ?_
  match a with
  | ⟨0, _⟩ => show win0_4.index t (0 : Fin 2) * 400 + 1 * p.val = 400 * t.val + p.val; omega
  | ⟨1, _⟩ => show win0_4.index t (1 : Fin 2) * 128 + 1 * q.val = q.val; omega

/-! ## What a step writes back, and the array after the run -/

/-- The block's neighbourhood mean is the specification's mean at the block's node. -/
theorem blockMean_eq (c : Dev nD) (t : Fin cfg0.N) (p : Fin 400) (k : Fin 128) :
    Payload.blockMean (adjBlk m c t) (featBlk m c t) p k = Cert.Sage.mean (feat m c) (adjm m c) (node t p) k := by
  unfold Payload.blockMean Cert.Sage.mean Cert.Sage.degree
  refine congrArg₂ Ideal.div (Finset.sum_congr rfl fun n _ => ?_)
    (congrArg₂ max (Finset.sum_congr rfl fun n _ => adjBlk_apply m c t p n) rfl)
  rw [adjBlk_apply, featBlk_apply]

/-- WHAT STEP `t` WRITES BACK is block `t` of the layer of the arrays the region finds. -/
theorem flushed_eq (c : Dev nD) (t : Fin cfg0.N) :
    (dats m 0 c).flushed 4 t = ((cfg0.win 4).blk t).view.read (Elt Ideal) (spec m c) := by
  rw [flushed4_A, Piece.out_eq]
  funext y
  obtain ⟨p, q, rfl⟩ : ∃ (p : Fin 400) (q : Fin 128), y = ix2 p q := ⟨y 0, y 1, eq_ix2 y⟩
  show k0_pay1 (F := Ideal) (adjBlk m c t) (featBlk m c t) (Piece.ownRows (grid0.coords t) (featBlk m c t))
      (Piece.leftHalf (wBlk m c t)) (Piece.rightHalf (wBlk m c t)) (bBlk m c t) (ix2 p q)
    = spec m c (((cfg0.win 4).blk t).view.emb (ix2 p q))
  rw [out_emb t p q]
  refine (Payload.pay_apply (adjBlk m c t) (featBlk m c t) (Piece.ownRows (grid0.coords t) (featBlk m c t))
      (Piece.leftHalf (wBlk m c t)) (Piece.rightHalf (wBlk m c t)) (bBlk m c t) p q).trans ?_
  unfold Payload.blockLayer
  show _ = max (((∑ k : Fin 128, feat m c (ix2 (node t p) k) * wmat m c (ix2 q (Cert.Sage.lo k)))
        + (∑ k : Fin 128, Cert.Sage.mean (feat m c) (adjm m c) (node t p) k * wmat m c (ix2 q (Cert.Sage.hi k))))
        + bias m c (ix1 q)) (Ideal.ofBits .f32 0x00000000#32)
  refine congrArg₂ max (congrArg₂ (· + ·) (congrArg₂ (· + ·) ?_ ?_) ?_) rfl
  · refine Finset.sum_congr rfl fun k _ => ?_
    rw [ownRows_apply, featBlk_apply, leftHalf_apply, wBlk_apply]
  · refine Finset.sum_congr rfl fun k _ => ?_
    rw [blockMean_eq, rightHalf_apply, wBlk_apply]
  · rw [bBlk_apply, brow_apply]

/-- An index of the result array is in step `t`'s block iff its row is one of the step's 400 rows. -/
theorem mem_blk (t : Fin cfg0.N) (i : S10000x128.Idx) :
    i ∈ ((cfg0.win 4).blk t).view.set ↔ ∀ a : Fin 2, win0_4.index t a * S400x128.size a ≤ (i a).val
      ∧ (i a).val < win0_4.index t a * S400x128.size a + S400x128.size a := by
  show i ∈ ((View.whole main_v1).slice (win0_4.rect t)).set ↔ _
  rw [View.set_slice_whole, Rect.mem_set_unit]
  exact Iff.rfl

/-- Every index of the result array is in the block of the step its row belongs to. -/
theorem cover (i : S10000x128.Idx) :
    ∃ t : Fin cfg0.N, (cfg0.win 4).flush t = true ∧ i ∈ ((cfg0.win 4).blk t).view.set := by
  have hN : cfg0.N = 25 := N_0
  have hi0 : (i 0).val < 10000 := (i 0).isLt
  have hi1 : (i 1).val < 128 := (i 1).isLt
  let t : Fin cfg0.N := ⟨(i 0).val / 400, by omega⟩
  obtain ⟨-, -, -, -, -, -, -, -, e0, e1, -⟩ := idx_facts t
  have ht : t.val = (i 0).val / 400 := rfl
  refine ⟨t, flush0_4 t, ?_⟩
  rw [mem_blk]
  intro a
  match a with
  | ⟨0, _⟩ =>
    show win0_4.index t (0 : Fin 2) * 400 ≤ (i 0).val ∧ (i 0).val < win0_4.index t (0 : Fin 2) * 400 + 400
    omega
  | ⟨1, _⟩ =>
    show win0_4.index t (1 : Fin 2) * 128 ≤ (i 1).val ∧ (i 1).val < win0_4.index t (1 : Fin 2) * 128 + 128
    omega

/-- THE RESULT ARRAY after the run is the layer of the arrays the region finds. -/
theorem final (c : Dev nD) : (dats m 0 c).arrAt 4 cfg0.N = spec m c :=
  (dats m 0 c).arrAt_eq_of_cover 4 (spec m c) (fun t _ => flushed_eq m c t) cover

/-- The run, read: the result array at the layer of the argument arrays, the arguments unchanged. -/
theorem run : θ_run defs (onTc (τ := τ) (main (F := Ideal))) ⟨m, fun _ => 0, ρ⟩ fun r => ∀ c : Dev nD,
      r.2.mem ((c : Thread nD τ).loc main_v1)
        = Cert.Sage.layer (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨by
      rw [(h c).1, final m c]
      show Cert.Sage.layer (V m c main_arg0) (V m c main_arg1) (V m c main_arg2) _ = _
      rw [V_main_arg0, V_main_arg1, V_main_arg2], (h c).2⟩)
    (run_blocks m ρ)

end Cert.Sage.Blocks

end
-- ==== Proof.RefTerm.lean ====
/-
  The reference program's result, read one operation at a time at an entry (node r, output feature c), is the layer
  of the specification. The reference joins the node's own features and the neighbourhood mean side by side into 256
  columns and multiplies by the transposed weight matrix: the sum over the 256 joined columns splits into the sum over
  the first 128 (own features against the weight matrix's left half) and the sum over the last 128 (the mean against the
  right half). Its clipped degree is max 1 (0 + ∑ adj), the specification's max (∑ adj) 1.
-/
import proofs.«137185_g62165356642709_cont_9to1_m_1371_16_alg».proof.Proof.Gen.ReferenceIdeal.Run
import proofs.«137185_g62165356642709_cont_9to1_m_1371_16_alg».proof.Proof.Gen.ReferenceIdeal.Read
import proofs.«137185_g62165356642709_cont_9to1_m_1371_16_alg».proof.Proof.Spec
import Idealize.ShloMosaic.Lib.Pipeline.Value

noncomputable section

namespace Cert.Sage.RefTerm

open Idealize.ShloMosaic Idealize.ShloMosaic.ValueIdx
open Cert.ReferenceIdeal Cert.ReferenceIdeal.Gen Cert.ReferenceIdeal.Read

variable (x0 : (⟨S10000x128, .f32⟩ : BufTy).Contents (Elt Ideal)) (x1 : (⟨S10000x10000, .f32⟩ : BufTy).Contents (Elt Ideal))
  (x2 : (⟨S128x256, .f32⟩ : BufTy).Contents (Elt Ideal)) (x3 : (⟨S128, .f32⟩ : BufTy).Contents (Elt Ideal))

/-- The reference's clipped degree, broadcast over the feature columns, is the specification's degree of the row. -/
theorem degree_apply (r : Fin 10000) (k : Fin 128) :
    val_main_v4 (F := Ideal) x1 (ix2 r k) = Cert.Sage.degree x1 r := by
  rw [val_main_v4_apply, val_main_v2_apply, val_main_call0_v1_apply, val_main_call0_v0_apply, val_main_cst_0_apply,
    val_main_v1_apply, val_main_v0_apply, val_main_cst_apply]
  unfold Cert.Sage.degree
  rw [Ideal.maximumf_def, Ideal.ofBits_def, Ideal.ofBits_def, Ideal.ofBits_zero_f32, zero_add, max_comm]
  refine congrArg₂ max (Finset.sum_congr rfl fun n _ => congrArg x1 (funext fun a => Fin.ext ?_)) rfl
  match a with
  | ⟨0, _⟩ => rfl
  | ⟨1, _⟩ => rfl

/-- The reference's neighbourhood mean is the specification's. -/
theorem mean_apply (r : Fin 10000) (k : Fin 128) :
    val_main_v5 (F := Ideal) x0 x1 (ix2 r k) = Cert.Sage.mean x0 x1 r k := by
  rw [val_main_v5_apply, val_main_v3_apply, degree_apply]
  unfold Cert.Sage.mean
  rw [Ideal.hostDivf_def]
  refine congrArg₂ Ideal.div (Finset.sum_congr rfl fun n _ => congrArg₂ (· * ·)
    (congrArg x1 (funext fun a => Fin.ext ?_)) (congrArg x0 (funext fun a => Fin.ext ?_))) rfl
  · match a with
    | ⟨0, _⟩ => rfl
    | ⟨1, _⟩ => rfl
  · match a with
    | ⟨0, _⟩ => rfl
    | ⟨1, _⟩ => rfl

/-- A column in the left half of the joined array is the node's own feature. -/
theorem joined_lo (r : Fin 10000) (c : Fin 128) (k : Fin 128) :
    val_main_v6 (F := Ideal) x0 x1 (lidx_main_v8 (ix2 r c) (Cert.Sage.lo k)) = x0 (ix2 r k) := by
  unfold val_main_v6
  refine concatenate_pair_apply_left (1 : Fin S10000x256.rank) x0 _ concatenates_S10000x128_S10000x128_S10000x256_d1
    (lidx_main_v8 (ix2 r c) (Cert.Sage.lo k)) rfl (ix2 r k) fun b => ?_
  match b with
  | ⟨0, _⟩ => rfl
  | ⟨1, _⟩ => rfl

/-- A column in the right half of the joined array is the neighbourhood mean. -/
theorem joined_hi (r : Fin 10000) (c : Fin 128) (k : Fin 128) :
    val_main_v6 (F := Ideal) x0 x1 (lidx_main_v8 (ix2 r c) (Cert.Sage.hi k)) = Cert.Sage.mean x0 x1 r k := by
  unfold val_main_v6
  refine (concatenate_pair_apply_right (1 : Fin S10000x256.rank) x0 _ concatenates_S10000x128_S10000x128_S10000x256_d1
    (lidx_main_v8 (ix2 r c) (Cert.Sage.hi k)) rfl rfl (ix2 r k) (fun b hb => ?_) ?_).trans (mean_apply x0 x1 r k)
  · match b with
    | ⟨0, _⟩ => rfl
    | ⟨1, _⟩ => exact absurd rfl hb
  · show k.val + 128 = 128 + k.val
    omega

/-- The transposed weight matrix at (joined column K, output feature c) is the weight matrix at (c, K). -/
theorem weight_apply (r : Fin 10000) (c : Fin 128) (K : Fin 256) :
    val_main_v7 (F := Ideal) x2 (ridx_main_v8 (ix2 r c) K) = x2 (ix2 c K) := by
  rw [val_main_v7_apply]
  refine congrArg x2 (funext fun a => Fin.ext ?_)
  match a with
  | ⟨0, _⟩ => rfl
  | ⟨1, _⟩ => rfl

/-- The bias broadcast over the rows, at (r, c), is the bias at c. -/
theorem bias_apply (r : Fin 10000) (c : Fin 128) :
    val_main_v10 (F := Ideal) x3 (ix2 r c) = x3 (ix1 c) := by
  rw [val_main_v10_apply, val_main_v9_apply]
  refine congrArg x3 (funext fun a => Fin.ext ?_)
  match a with
  | ⟨0, _⟩ => rfl

/-- The reference's result is the specification's layer, entry by entry. -/
theorem result_eq : val_main_v12 (F := Ideal) x0 x1 x2 x3 = Cert.Sage.layer x0 x1 x2 x3 := by
  funext j
  obtain ⟨r, c, rfl⟩ : ∃ (r : Fin 10000) (c : Fin 128), j = ix2 r c := ⟨j 0, j 1, eq_ix2 j⟩
  rw [val_main_v12_apply, val_main_v11_apply, val_main_v8_apply, bias_apply, val_main_call1_v0_apply,
    val_main_call1_cst_apply, Cert.Sage.sum_halves]
  unfold Cert.Sage.layer
  rw [Ideal.maximumf_def, Ideal.ofBits_def]
  refine congrArg₂ max (congrArg₂ (· + ·) (congrArg₂ (· + ·) ?_ ?_) rfl) rfl
  · refine Finset.sum_congr rfl fun k _ => ?_
    rw [joined_lo, weight_apply]
  · refine Finset.sum_congr rfl fun k _ => ?_
    rw [joined_hi, weight_apply]

end Cert.Sage.RefTerm

end
-- ==== Proof.lean ====
/-
  A graph layer with mean aggregation over a dense adjacency matrix: for node r and output feature c,

    out (r, c) = max ((∑ k, x (r, k) · W (c, k) + ∑ k, mean (r, k) · W (c, 128 + k)) + b c) 0,
    mean (r, k) = (∑ n, adj (r, n) · x (n, k)) / max (∑ n, adj (r, n)) 1.

  The kernel computes it in 25 steps of 400 nodes each: a step sums its 400 adjacency rows for the degrees, multiplies
  them into the whole feature matrix, divides, and multiplies the step's own feature rows and the means by the left and
  right halves of the weight matrix. The reference joins features and means into 256 columns and multiplies by the
  transposed weight matrix once. Over the extended reals the two agree entry by entry: the sum over the 256 joined columns
  is the sum over its two halves, and the maximum is symmetric; no other law is used, so the inputs' finiteness is never
  opened. The kernel's idealization rewrote nothing, and each program's frame is its run with the result dropped.
-/
import proofs.«137185_g62165356642709_cont_9to1_m_1371_16_alg».proof.Defs
import proofs.«137185_g62165356642709_cont_9to1_m_1371_16_alg».proof.Proof.Gen.Kernel
import proofs.«137185_g62165356642709_cont_9to1_m_1371_16_alg».proof.Proof.Gen.Kernel.Frame
import proofs.«137185_g62165356642709_cont_9to1_m_1371_16_alg».proof.Proof.Gen.KernelIdeal
import proofs.«137185_g62165356642709_cont_9to1_m_1371_16_alg».proof.Proof.Gen.KernelIdeal.Frame
import proofs.«137185_g62165356642709_cont_9to1_m_1371_16_alg».proof.Proof.Gen.ReferenceIdeal
import proofs.«137185_g62165356642709_cont_9to1_m_1371_16_alg».proof.Proof.Gen.ReferenceIdeal.Run
import proofs.«137185_g62165356642709_cont_9to1_m_1371_16_alg».proof.Proof.Gen.ReferenceIdeal.Read
import proofs.«137185_g62165356642709_cont_9to1_m_1371_16_alg».proof.Proof.Gen.Pre_finite_inputs
import proofs.«137185_g62165356642709_cont_9to1_m_1371_16_alg».proof.Proof.Blocks
import proofs.«137185_g62165356642709_cont_9to1_m_1371_16_alg».proof.Proof.RefTerm
import Idealize.ShloMosaic.Adequacy
import Idealize.ShloMosaic.Init

noncomputable section

namespace Cert.Proof

open Idealize.ShloMosaic Idealize.SL.Sem

/-- Both idealized programs, run from memories that agree on the four arguments, end with the layer of those
    arguments in their result arrays. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Sage.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Sage.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.Sage.RefTerm.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
